-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S4096 : Shape := ⟨1, ![4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S32768x4096 .f32) (main_arg1 : FVec F S4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S32768x4096 : Shape := ⟨2, ![32768, 4096]⟩
abbrev S4096 : Shape := ⟨1, ![4096]⟩
abbrev S1x4096 : Shape := ⟨2, ![1, 4096]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S32768x4096, .f32⟩
  | .hbm, ⟨1, _⟩ => ⟨S4096, .f32⟩
  | .hbm, ⟨2, _⟩ => ⟨S1x4096, .f32⟩
  | .hbm, ⟨3, _⟩ => ⟨S32768x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S32768x4096.size a
  hwx0_2 : ∀ i : grid0.Coords, EltTy.bits .f32 = 32 ∨ (Rect.block (s := S32768x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S4096 : Shape := ⟨1, ![4096]⟩
abbrev S1x4096 : Shape := ⟨2, ![1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4096, .f32⟩
  | .hbm, ⟨2, _⟩ => ⟨S1x4096, .f32⟩
  | .hbm, ⟨3, _⟩ => ⟨S32768x4096, .f32⟩
  | .hbm, ⟨4, _⟩ => ⟨S32768x4096, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S32768x4096_0_1 : S1x4096.BroadcastsInDim S32768x4096 (![0, 1] : Fin 2 → Fin S32768x4096.rank)

variable [Facts₀]

class Facts : Prop extends Facts₀ where

variable [Facts]
-- ==== Proof.ColumnScale.lean ====
/-
  What both programs compute, as ONE function of the two argument arrays.

  The input is a batch of 32768 rows of 4096 features; the mask is one vector of 4096 entries, one per
  feature. The result has the input's shape, and its entry in row `r`, column `j` is

      x[r, j] · k[j]

  — the product of the input's entry and the mask entry OF ITS COLUMN; the row plays no part in which mask
  entry is read. (This is the input times the diagonal matrix of the mask, with the zeros of the matrix
  never multiplied.) The function is stated for any float instance: it is one multiplication per entry, and
  no law of arithmetic is needed to recognise it in either program, so nothing here speaks of the extended
  reals or of finiteness.
-/
import Idealize.ShloMosaic.PureOps
import Idealize.ShloMosaic.Lib.ValueIdx

noncomputable section

namespace Cert.ColumnScale

open Idealize.ShloMosaic Idealize.ShloMosaic.ValueIdx

variable {F : FTy → Type} [FloatOps F]

/-- The batch: 32768 rows of 4096 features. -/
abbrev Batch : Shape := ⟨2, ![32768, 4096]⟩
/-- One entry per feature. -/
abbrev Features : Shape := ⟨1, ![4096]⟩

/-- Every entry of the batch `x` multiplied by the mask entry of its column. -/
def scaled (x : Vec F Batch .f32) (k : Vec F Features .f32) : Vec F Batch .f32 :=
  fun i => FloatOps.mulf (x i) (k (ix1 (i 1)))

/-- Read at row `r`, column `j`: the entry there times mask entry `j`. -/
theorem scaled_apply (x : Vec F Batch .f32) (k : Vec F Features .f32) (r : Fin 32768) (j : Fin 4096) :
    scaled x k (ix2 r j) = FloatOps.mulf (x (ix2 r j)) (k (ix1 j)) := rfl

end Cert.ColumnScale

end
-- ==== Proof.KernelScaled.lean ====
/-
  The kernel computes `scaled`.

  Before the region the host lays the mask vector out as a one-row matrix (a unit row axis in front: its entry
  `(0, j)` is mask entry `j`). The region then walks the batch in 64 blocks of 512 whole rows. At block `t` it
  has rows `512 t … 512 t + 511` of the batch (all 4096 columns) and the one mask row (the same at every
  block); it repeats the mask row down the 512 rows of the block, multiplies entry by entry, and writes the
  product back as rows `512 t … 512 t + 511` of the result.

  So the entry the block writes at its local position `(p, q)` is `x[512 t + p, q] · k[q]`, which is `scaled`
  at the array position `(512 t + p, q)` that local position lands on: each write-back is a block of the one
  whole-array function. Row `r` of the result lies in block `r / 512`, so the 64 blocks cover the result
  array, and after the run it holds `scaled` of the two arguments everywhere.
-/
import proofs.«412832_j81681688035444_3_alg».proof.Proof.Gen.KernelIdeal.Value
import proofs.«412832_j81681688035444_3_alg».proof.Proof.ColumnScale
import Idealize.ShloMosaic.Lib.StableHlo.Run
import Idealize.ShloMosaic.Lib.ValueLayout

noncomputable section

namespace Cert.KernelIdeal.Scaled

open Cert.KernelIdeal Cert.KernelIdeal.Gen Cert.KernelIdeal.Value
open Idealize.ShloMosaic Idealize.ShloMosaic.TcCoe Idealize.SL.Sem Idealize.ShloMosaic.StableHlo
open Idealize.ShloMosaic.ValueIdx Cert.ColumnScale
open Idealize.ShloMosaic.Pipeline (Dat)

variable {F : FTy → Type} [FloatOps F]
variable (m : (ℓ : Loc nD τ sig) → Buf (Elt F) ℓ) (ρ : Dev nD → PrngReg)

/-- The batch as launched. -/
abbrev batch (c : Dev nD) : Vec F S32768x4096 .f32 := m ((c : Thread nD τ).loc main_arg0)
/-- The mask vector as launched. -/
abbrev mask (c : Dev nD) : Vec F S4096 .f32 := m ((c : Thread nD τ).loc main_arg1)

theorem zero_offsets : (![0, 0] : Fin 2 → Nat) = fun _ => 0 := funext fun a => by fin_cases a <;> rfl

/-! ## The mask row the region is handed -/

/-- The region's second operand is the mask vector with a unit row axis put in front. -/
theorem mask_row (c : Dev nD) :
    (V m c main_v0 : S1x4096.Idx → Elt F .f32) = shapeCast S1x4096 (mask m c) shapeCasts_S4096_S1x4096 := by
  dsimp only [V, hostOps0]; after_results; rfl

/-- Its entry in column `j` is mask entry `j`. -/
theorem mask_row_apply (c : Dev nD) (u : Fin 1) (j : Fin 4096) :
    (V m c main_v0 : S1x4096.Idx → Elt F .f32) (ix2 u j) = mask m c (ix1 j) := by
  rw [mask_row]; exact shapeCast_a_1a_apply _ _ u j

/-! ## Which block each operand is on at a grid point -/

/-- At point `t` the batch and the result are on row block `t` (their one column block), the mask row on its
    one block: decided over the 64 points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, q)` of the batch's block at point `t` is entry `(512 t + p, q)` of the batch. -/
theorem batch_block (c : Dev nD) (t : Fin cfg0.N) (y : S512x4096.Idx) (i : S32768x4096.Idx)
    (hrow : (i 0).val = 512 * t.val + (y 0).val) (hcol : (i 1).val = (y 1).val) :
    (iblk m c 0 t : Vec F S512x4096 .f32) y = batch m c i := by
  obtain ⟨e0, e1, -⟩ := block_indices t
  unfold iblk
  rw [View.read_apply]
  show V m c main_arg0 _ = _
  rw [V_main_arg0]
  show batch m c _ = batch m c i
  congr 1
  funext a; apply Fin.ext
  match a with
  | ⟨0, _⟩ => show win0_0.index t (0 : Fin 2) * 512 + 1 * (y 0).val = (i 0).val; omega
  | ⟨1, _⟩ => show win0_0.index t (1 : Fin 2) * 4096 + 1 * (y 1).val = (i 1).val; omega

/-- Entry `(0, q)` of the mask row's block, at any point, is mask entry `q`. -/
theorem mask_block (c : Dev nD) (t : Fin cfg0.N) (y : S1x4096.Idx) :
    (iblk m c 1 t : Vec F S1x4096 .f32) y = mask m c (ix1 (y 1)) := by
  obtain ⟨-, -, e2, e3, -⟩ := block_indices t
  have hy : (y 0).val < 1 := (y 0).isLt
  unfold iblk
  rw [View.read_apply]
  show V m c main_v0 _ = _
  have e : ((cfg0.win 1).blk t).view.emb y = ix2 (0 : Fin 1) (y 1) := by
    funext a; apply Fin.ext
    match a with
    | ⟨0, _⟩ => show win0_1.index t (0 : Fin 2) * 1 + 1 * (y 0).val = 0; omega
    | ⟨1, _⟩ => show win0_1.index t (1 : Fin 2) * 4096 + 1 * (y 1).val = (y 1).val; omega
  rw [e]
  exact mask_row_apply m c 0 (y 1)

/-! ## What a grid point writes back -/

/-- Point `t` writes back block `t` of `scaled` of the two arguments. -/
theorem flushed_scaled (c : Dev nD) (t : Fin cfg0.N) :
    (dats m 0 c).flushed 2 t = ((cfg0.win 2).blk t).view.read (Elt F) (scaled (batch m c) (mask m c)) := by
  obtain ⟨-, -, -, -, e4, e5⟩ := block_indices t
  rw [flushed2]
  unfold out0_2
  funext y
  show View.canon [⟨r0_0, k0_pay1 (View.ld (iblk m c 0 t) r0_0) (View.ld (iblk m c 1 t) r0_1)⟩] y
      = scaled (batch m c) (mask m c) (((cfg0.win 2).blk t).view.emb y)
  rw [canon2_eq]
  simp only [View.ld_unit_zero (S := S512x4096) zero_offsets, View.ld_unit_zero (S := S1x4096) zero_offsets]
  show FloatOps.mulf ((iblk m c 0 t : Vec F S512x4096 .f32) (ix2_0 y)) ((iblk m c 1 t : Vec F S1x4096 .f32) (ix2_1 y))
      = FloatOps.mulf (batch m c (((cfg0.win 2).blk t).view.emb y)) (mask m c (ix1 ((((cfg0.win 2).blk t).view.emb y) 1)))
  refine congrArg₂ FloatOps.mulf (batch_block m c t _ _ ?_ ?_) ((mask_block m c t _).trans ?_)
  · show win0_2.index t (0 : Fin 2) * 512 + 1 * (y 0).val = 512 * t.val + (y 0).val; omega
  · show win0_2.index t (1 : Fin 2) * 4096 + 1 * (y 1).val = (y 1).val; omega
  · refine congrArg (mask m c) (congrArg ix1 (Fin.ext ?_))
    show (y 1).val = win0_2.index t (1 : Fin 2) * 4096 + 1 * (y 1).val; omega

/-! ## The blocks cover the result -/

/-- An entry of the result is in point `t`'s block exactly when, on each axis, its coordinate is in the
    block's range there. -/
theorem mem_block (t : Fin cfg0.N) (i : S32768x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v1).slice (win0_2.rect t)).set ↔ _
  rw [View.set_slice_whole, Rect.mem_set_unit]
  exact Iff.rfl

/-- Row `r` of the result is written by point `r / 512`: every entry is in some point's block. -/
theorem row_blocks_cover (i : S32768x4096.Idx) :
    ∃ t : Fin cfg0.N, (cfg0.win 2).flush t = true ∧ i ∈ ((cfg0.win 2).blk t).view.set := by
  have hr : (i 0).val < 32768 := (i 0).isLt
  have hq : (i 1).val < 4096 := (i 1).isLt
  have hN : cfg0.N = 64 := N_0
  obtain ⟨t, ht⟩ : ∃ t : Fin cfg0.N, t.val = (i 0).val / 512 := ⟨⟨(i 0).val / 512, by rw [hN]; omega⟩, rfl⟩
  obtain ⟨-, -, -, -, e4, e5⟩ := block_indices t
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 4096 ≤ (i 1).val ∧ (i 1).val < win0_2.index t (1 : Fin 2) * 4096 + 4096
    omega

/-! ## The result array, and the run -/

/-- After the last point the result array holds `scaled` of the two arguments. -/
theorem final (c : Dev nD) : (dats m 0 c).arrAt 2 cfg0.N = scaled (batch m c) (mask m c) :=
  (dats m 0 c).arrAt_eq_of_cover 2 (scaled (batch m c) (mask m c)) (fun t _ => flushed_scaled m c t) row_blocks_cover

/-- Every weakly fair execution of the kernel's program terminates with the result at `scaled` of the two
    arguments, and the arguments as launched. -/
theorem run : θ_run defs (onTc (τ := τ) (main (F := F))) ⟨m, fun _ => 0, ρ⟩ fun r => ∀ c : Dev nD,
      r.2.mem ((c : Thread nD τ).loc main_v1) = scaled (batch m c) (mask m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Scaled

end
-- ==== Proof.ReferenceScaled.lean ====
/-
  The reference computes `scaled`.

  Its three host operations are: the mask vector laid out as a one-row matrix (entry `(0, j)` of the matrix
  is entry `j` of the vector); that row repeated down all 32768 rows (entry `(r, j)` is entry `(0, j)` of the
  row); and the entrywise product with the input. Read at an index `(r, j)`, the two layout steps compose
  to "mask entry `j`", whatever `r` is, so the product is `x[r, j] · k[j]`.
-/
import proofs.«412832_j81681688035444_3_alg».proof.Proof.Gen.ReferenceIdeal.Read
import proofs.«412832_j81681688035444_3_alg».proof.Proof.ColumnScale

noncomputable section

namespace Cert.ReferenceIdeal.Scaled

open Cert.ReferenceIdeal Cert.ReferenceIdeal.Gen Cert.ReferenceIdeal.Read
open Idealize.ShloMosaic Idealize.ShloMosaic.ValueIdx Cert.ColumnScale

variable {F : FTy → Type} [FloatOps F]

/-- Through both layout steps, the entry at `i` comes from the mask entry of `i`'s column. -/
theorem column_of (i : S32768x4096.Idx) : idx_main_v0 (idx_main_v1 i) = ix1 (i 1) :=
  funext fun a => match a with | ⟨0, _⟩ => rfl

/-- The reference's result, as a function of the two arguments, is `scaled`. -/
theorem result_scaled (x : (⟨S32768x4096, .f32⟩ : BufTy).Contents (Elt F)) (k : (⟨S4096, .f32⟩ : BufTy).Contents (Elt F)) :
    val_main_v2 (F := F) x k = scaled x k := by
  funext i
  rw [val_main_v2_apply, val_main_v1_apply, val_main_v0_apply, column_of]
  rfl

end Cert.ReferenceIdeal.Scaled

end
-- ==== Proof.lean ====
/-
  A batch of 32768 rows of 4096 features is masked feature by feature: the result's entry in row `r`, column `j`
  is `x[r, j] · k[j]`, where `k` is a vector with one entry per feature (`Cert.ColumnScale.scaled`).

  The kernel gets there in 64 steps of 512 whole rows, each step multiplying its rows by the mask laid out as one
  row and repeated down the step's rows; the reference repeats the mask down all 32768 rows at once and
  multiplies. Read at an index both are the same single product, with the same operands in the same order, so
  the two results are equal entry by entry on the extended reals with no law of arithmetic in between — in
  particular nothing here depends on the inputs being finite, and the precondition is never opened.

  The kernel's side: `Proof/KernelScaled.lean` (each step writes back a block of `scaled`; the blocks cover the
  result). The reference's side: `Proof/ReferenceScaled.lean` (its two layout steps read mask entry `j` at
  column `j`). The three frames are the programs' runs with the result forgotten, and the kernel's
  idealization rewrote no operation, so there is nothing to preserve.
-/
import proofs.«412832_j81681688035444_3_alg».proof.Defs
import proofs.«412832_j81681688035444_3_alg».proof.Proof.Gen.Kernel
import proofs.«412832_j81681688035444_3_alg».proof.Proof.Gen.Kernel.Skeleton
import proofs.«412832_j81681688035444_3_alg».proof.Proof.Gen.Kernel.Launch
import proofs.«412832_j81681688035444_3_alg».proof.Proof.Gen.Kernel.Points
import proofs.«412832_j81681688035444_3_alg».proof.Proof.Gen.Kernel.Frame
import proofs.«412832_j81681688035444_3_alg».proof.Proof.Gen.KernelIdeal
import proofs.«412832_j81681688035444_3_alg».proof.Proof.Gen.KernelIdeal.Skeleton
import proofs.«412832_j81681688035444_3_alg».proof.Proof.Gen.KernelIdeal.Launch
import proofs.«412832_j81681688035444_3_alg».proof.Proof.Gen.KernelIdeal.Points
import proofs.«412832_j81681688035444_3_alg».proof.Proof.Gen.KernelIdeal.Frame
import proofs.«412832_j81681688035444_3_alg».proof.Proof.Gen.ReferenceIdeal
import proofs.«412832_j81681688035444_3_alg».proof.Proof.Gen.Pre_finite_inputs
import proofs.«412832_j81681688035444_3_alg».proof.Proof.Gen.KernelIdeal.Value
import proofs.«412832_j81681688035444_3_alg».proof.Proof.Gen.ReferenceIdeal.Run
import proofs.«412832_j81681688035444_3_alg».proof.Proof.Gen.ReferenceIdeal.Read
import proofs.«412832_j81681688035444_3_alg».proof.Proof.ColumnScale
import proofs.«412832_j81681688035444_3_alg».proof.Proof.KernelScaled
import proofs.«412832_j81681688035444_3_alg».proof.Proof.ReferenceScaled
import Idealize.ShloMosaic.Adequacy
import Idealize.ShloMosaic.Init

noncomputable section

namespace Cert.Proof

open Idealize.ShloMosaic Idealize.ShloMosaic.TcCoe Idealize.SL.Sem

/-- The kernel as printed runs to the end without a fault and leaves its two arguments as they were. -/
theorem kernel_runs : Cert.frame_Kernel := fun m ρ _ => Cert.Kernel.Gen.frame m ρ

/-- So does the kernel read over the extended reals. -/
theorem ideal_kernel_runs : Cert.frame_KernelIdeal := fun m ρ _ => Cert.KernelIdeal.Gen.frame m ρ

/-- So does the reference: its run, with what it says of the result dropped. -/
theorem reference_runs : Cert.frame_ReferenceIdeal := fun m ρ _ =>
  (θ_run Cert.ReferenceIdeal.defs _ _).mono (fun _ h c => (h c).2) (Cert.ReferenceIdeal.Value.run (F := Ideal) m ρ)

/-- From memories that agree on the batch and on the mask, both programs end with the result at `scaled` of
    the two: the kernel block by block, the reference in one product. -/
theorem same_result : Cert.algebraic_KernelIdeal_ReferenceIdeal := by
  intro m ρ m' ρ' _ hagree
  refine ⟨_, Cert.KernelIdeal.Scaled.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Scaled.result_scaled, (hagree c).1, (hagree c).2]

theorem claim : Cert.Claim :=
  ⟨Cert.Kernel.Gen.facts, Cert.KernelIdeal.Gen.facts, Cert.ReferenceIdeal.Gen.facts, Cert.Pre_finite_inputs.Gen.facts,
    kernel_runs, ideal_kernel_runs, reference_runs, trivial, same_result⟩

end Cert.Proof

end
